-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192 : Shape := ⟨2, ![8, 8192]⟩
abbrev S28672x2048 : Shape := ⟨2, ![28672, 2048]⟩
abbrev S1 : Shape := ⟨1, ![1]⟩
abbrev S28672 : Shape := ⟨1, ![28672]⟩
abbrev S_ : Shape := ⟨0, ![]⟩

class Facts : Prop where
  bcast_S_S8x8192 : S_.BroadcastsInDim S8x8192 (![] : Fin 0 → Fin S8x8192.rank)
  reducesTo_S8x8192_S_d0_1 : S8x8192.ReducesTo [0, 1] S_
  h_S_ : 0 < S_.numel
  bcast_S_S1 : S_.BroadcastsInDim S1 (![] : Fin 0 → Fin S1.rank)
  reducesTo_S1_S_d0 : S1.ReducesTo [0] S_
  bcast_S_S28672 : S_.BroadcastsInDim S28672 (![] : Fin 0 → Fin S28672.rank)
  reducesTo_S28672_S_d0 : S28672.ReducesTo [0] S_

variable [Facts]

def fn {F : FTy → Type} [FloatOps F] (main_arg0 : FVec F S8x8192 .f32) (main_arg1 : IVec S28672x2048 32) (main_arg2 : FVec F S1 .f32) (main_arg3 : FVec F S28672 .f32) : IVec S_ 1 :=
  let main_v0 : FVec F S8x8192 .f32 := Host.absf main_arg0
  let main_cst : FVec F S_ .f32 := constant S_ .f32 0x7F800000#32
  let main_v1 : FVec F S8x8192 .f32 := broadcastInDim S8x8192 ![] bcast_S_S8x8192 main_cst
  let main_v2 : IVec S8x8192 1 := cmpf .olt main_v0 main_v1
  let main_c : IVec S_ 1 := constantI S_ 1 1#1
  let main_v3 : IVec S_ 1 := (fun x v => Host.reduce IntOp.andi x v reducesTo_S8x8192_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S28672 .f32 := Host.absf main_arg3
  let main_cst_2 : FVec F S_ .f32 := constant S_ .f32 0x7F800000#32
  let main_v10 : FVec F S28672 .f32 := broadcastInDim S28672 ![] bcast_S_S28672 main_cst_2
  let main_v11 : IVec S28672 1 := cmpf .olt main_v9 main_v10
  let main_c_3 : IVec S_ 1 := constantI S_ 1 1#1
  let main_v12 : IVec S_ 1 := (fun x v => Host.reduce IntOp.andi x v reducesTo_S28672_S_d0 h_S_) main_v11 main_c_3
  let main_v13 : IVec S_ 1 := andi main_v8 main_v12
  main_v13
-- ==== Kernel.lean ====
abbrev S8x8192 : Shape := ⟨2, ![8, 8192]⟩
abbrev S28672x2048 : Shape := ⟨2, ![28672, 2048]⟩
abbrev S1 : Shape := ⟨1, ![1]⟩
abbrev S28672 : Shape := ⟨1, ![28672]⟩
abbrev S4 : Shape := ⟨1, ![4]⟩
abbrev S_ : Shape := ⟨0, ![]⟩
abbrev S8 : Shape := ⟨1, ![8]⟩
abbrev S8x1 : Shape := ⟨2, ![8, 1]⟩
abbrev S8x2048x4 : Shape := ⟨3, ![8, 2048, 4]⟩
abbrev S4x8x2048 : Shape := ⟨3, ![4, 8, 2048]⟩
abbrev S4x1x1 : Shape := ⟨3, ![4, 1, 1]⟩
abbrev S1x1 : Shape := ⟨2, ![1, 1]⟩
abbrev S1x28672 : Shape := ⟨2, ![1, 28672]⟩
abbrev S8x28672 : Shape := ⟨2, ![8, 28672]⟩
abbrev S1024x2048 : Shape := ⟨2, ![1024, 2048]⟩
abbrev S1x1024 : Shape := ⟨2, ![1, 1024]⟩
abbrev S8x1024 : Shape := ⟨2, ![8, 1024]⟩
abbrev S1x8x2048 : Shape := ⟨3, ![1, 8, 2048]⟩
abbrev S8x2048 : Shape := ⟨2, ![8, 2048]⟩

abbrev nBuf : Space → Nat
  | .hbm => 37
  | .vmem => 9
  | .smem => 0
  | _ => 0

abbrev bufTy : (tb : Table) → Fin (tcTables nBuf tb) → BufTy
  | .hbm, ⟨0, _⟩ => ⟨S8x8192, .f32⟩
  | .hbm, ⟨1, _⟩ => ⟨S28672x2048, .i32⟩
  | .hbm, ⟨2, _⟩ => ⟨S1, .f32⟩
  | .hbm, ⟨3, _⟩ => ⟨S28672, .f32⟩
  | .hbm, ⟨4, _⟩ => ⟨S4, .f32⟩
  | .hbm, ⟨5, _⟩ => ⟨S8x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x8192, .f32⟩
  | .hbm, ⟨13, _⟩ => ⟨S8x8192, .f32⟩
  | .hbm, ⟨14, _⟩ => ⟨S8x8192, .f32⟩
  | .hbm, ⟨15, _⟩ => ⟨S_, .i32⟩
  | .hbm, ⟨16, _⟩ => ⟨S_, .i32⟩
  | .hbm, ⟨17, _⟩ => ⟨S_, .f32⟩
  | .hbm, ⟨18, _⟩ => ⟨S8x8192, .f32⟩
  | .hbm, ⟨19, _⟩ => ⟨S8x8192, .f32⟩
  | .hbm, ⟨20, _⟩ => ⟨S_, .f32⟩
  | .hbm, ⟨21, _⟩ => ⟨S8x8192, .f32⟩
  | .hbm, ⟨22, _⟩ => ⟨S8x8192, .f32⟩
  | .hbm, ⟨23, _⟩ => ⟨S_, .f32⟩
  | .hbm, ⟨24, _⟩ => ⟨S8, .f32⟩
  | .hbm, ⟨25, _⟩ => ⟨S8x1, .f32⟩
  | .hbm, ⟨26, _⟩ => ⟨S8x2048x4, .f32⟩
  | .hbm, ⟨27, _⟩ => ⟨S4x8x2048, .f32⟩
  | .hbm, ⟨28, _⟩ => ⟨S4x1x1, .f32⟩
  | .hbm, ⟨29, _⟩ => ⟨S4x8x2048, .f32⟩
  | .hbm, ⟨30, _⟩ => ⟨S4x8x2048, .f32⟩
  | .hbm, ⟨31, _⟩ => ⟨S4x8x2048, .bf16⟩
  | .hbm, ⟨32, _⟩ => ⟨S_, .f32⟩
  | .hbm, ⟨33, _⟩ => ⟨S_, .f32⟩
  | .hbm, ⟨34, _⟩ => ⟨S1x1, .f32⟩
  | .hbm, ⟨35, _⟩ => ⟨S1x28672, .f32⟩
  | .hbm, ⟨36, _⟩ => ⟨S8x28672, .f32⟩
  | .local _ .vmem, ⟨0, _⟩ => ⟨S1024x2048, .i32⟩
  | .local _ .vmem, ⟨1, _⟩ => ⟨S1024x2048, .i32⟩
  | .local _ .vmem, ⟨2, _⟩ => ⟨S4x8x2048, .bf16⟩
  | .local _ .vmem, ⟨3, _⟩ => ⟨S8x1, .f32⟩
  | .local _ .vmem, ⟨4, _⟩ => ⟨S1x1024, .f32⟩
  | .local _ .vmem, ⟨5, _⟩ => ⟨S1x1024, .f32⟩
  | .local _ .vmem, ⟨6, _⟩ => ⟨S1x1, .f32⟩
  | .local _ .vmem, ⟨7, _⟩ => ⟨S8x1024, .f32⟩
  | .local _ .vmem, ⟨8, _⟩ => ⟨S8x1024, .f32⟩
  | _, _ => ⟨S8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_c_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v7 : Ref sig .tc := ⟨.hbm, 22, rfl⟩
abbrev main_cst_4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x8x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S8x8192_S_d0_1 : S8x8192.ReducesTo [0, 1] S_
  h_S_ : 0 < S_.numel
  bcast_S_S8x8192 : S_.BroadcastsInDim S8x8192 (![] : Fin 0 → Fin S8x8192.rank)
  reducesTo_S8x8192_S8_d1 : S8x8192.ReducesTo [1] S8
  bcast_S8_S8x1_0 : S8.BroadcastsInDim S8x1 (![0] : Fin 1 → Fin S8x1.rank)
  shapeCasts_S8x8192_S8x2048x4 : S8x8192.ShapeCasts S8x2048x4
  transposes_S8x2048x4_S4x8x2048_2_0_1 : S8x2048x4.Transposes [2, 0, 1] S4x8x2048
  shapeCasts_S4_S4x1x1 : S4.ShapeCasts S4x1x1
  bcast_S4x1x1_S4x8x2048_0_1_2 : S4x1x1.BroadcastsInDim S4x8x2048 (![0, 1, 2] : Fin 3 → Fin S4x8x2048.rank)
  bitsLt_bf16_f32 : FTy.bits .bf16 < FTy.bits .f32
  shapeCasts_S1_S_ : S1.ShapeCasts S_
  shapeCasts_S_S1x1 : S_.ShapeCasts S1x1
  shapeCasts_S28672_S1x28672 : S28672.ShapeCasts S1x28672
  inb_S1024x2048_S1024x2048_0_0 : ∀ a, (![0, 0] : Fin 2 → Nat) a + S1024x2048.size a ≤ S1024x2048.size a
  h_S1024x2048 : 0 < S1024x2048.numel
  inb_S4x8x2048_S1x8x2048_0_0_0 : ∀ a, (![0, 0, 0] : Fin 3 → Nat) a + S1x8x2048.size a ≤ S4x8x2048.size a
  h_S1x8x2048 : 0 < S1x8x2048.numel
  shapeCasts_S1x8x2048_S8x2048 : S1x8x2048.ShapeCasts S8x2048
  inb_S4x8x2048_S1x8x2048_1_0_0 : ∀ a, (![1, 0, 0] : Fin 3 → Nat) a + S1x8x2048.size a ≤ S4x8x2048.size a
  inb_S4x8x2048_S1x8x2048_2_0_0 : ∀ a, (![2, 0, 0] : Fin 3 → Nat) a + S1x8x2048.size a ≤ S4x8x2048.size a
  inb_S4x8x2048_S1x8x2048_3_0_0 : ∀ a, (![3, 0, 0] : Fin 3 → Nat) a + S1x8x2048.size a ≤ S4x8x2048.size a
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x1024 : S8x1.Broadcasts S8x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S8x1024 : S1x1024.Broadcasts S8x1024
  inb_S8x1024_S8x1024_0_0 : ∀ a, (![0, 0] : Fin 2 → Nat) a + S8x1024.size a ≤ S8x1024.size a
  h_S8x1024 : 0 < S8x1024.numel
  dot_S8x2048_S1024x2048_S8x1024_1_1_0_0_n_n_wf : DotDims.WF S8x2048 S1024x2048 S8x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S28672x2048.size a
  hwx0_0 : ∀ i : grid0.Coords, EltTy.bits .i32 = 32 ∨ (Rect.block (s := S28672x2048) S1024x2048.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x8x2048.size a ≤ S4x8x2048.size a
  hwx0_1 : ∀ i : grid0.Coords, EltTy.bits .bf16 = 32 ∨ (Rect.block (s := S4x8x2048) S4x8x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S8x1.size a
  hwx0_2 : ∀ i : grid0.Coords, EltTy.bits .f32 = 32 ∨ (Rect.block (s := S8x1) S8x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x28672.size a
  hwx0_3 : ∀ i : grid0.Coords, EltTy.bits .f32 = 32 ∨ (Rect.block (s := S1x28672) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1024.size a ≤ S8x28672.size a
  hwx0_5 : ∀ i : grid0.Coords, EltTy.bits .f32 = 32 ∨ (Rect.block (s := S8x28672) S8x1024.size (cc0_transform_5 i) (hinb0_5 i)).WholeWords (EltTy.packing .f32)

variable [Facts₀]

def dot_S8x2048_S1024x2048_S8x1024_1_1_0_0_n_n : DotDims S8x2048 S1024x2048 S8x1024 where
  lhsContracting := [1]
  rhsContracting := [1]
  lhsNonContracting := [0]
  rhsNonContracting := [0]
  lhsBatch := []
  rhsBatch := []
  wf := dot_S8x2048_S1024x2048_S8x1024_1_1_0_0_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4x8x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S8x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x8192 : Shape := ⟨2, ![8, 8192]⟩
abbrev S28672x2048 : Shape := ⟨2, ![28672, 2048]⟩
abbrev S1 : Shape := ⟨1, ![1]⟩
abbrev S28672 : Shape := ⟨1, ![28672]⟩
abbrev S4 : Shape := ⟨1, ![4]⟩
abbrev S_ : Shape := ⟨0, ![]⟩
abbrev S28672x2048x1 : Shape := ⟨3, ![28672, 2048, 1]⟩
abbrev S1x1x4 : Shape := ⟨3, ![1, 1, 4]⟩
abbrev S28672x2048x4 : Shape := ⟨3, ![28672, 2048, 4]⟩
abbrev S28672x8192 : Shape := ⟨2, ![28672, 8192]⟩
abbrev S8x28672 : Shape := ⟨2, ![8, 28672]⟩
abbrev S1x28672 : Shape := ⟨2, ![1, 28672]⟩

abbrev nBuf : Space → Nat
  | .hbm => 44
  | .vmem => 0
  | .smem => 0
  | _ => 0

abbrev bufTy : (tb : Table) → Fin (tcTables nBuf tb) → BufTy
  | .hbm, ⟨0, _⟩ => ⟨S8x8192, .f32⟩
  | .hbm, ⟨1, _⟩ => ⟨S28672x2048, .i32⟩
  | .hbm, ⟨2, _⟩ => ⟨S1, .f32⟩
  | .hbm, ⟨3, _⟩ => ⟨S28672, .f32⟩
  | .hbm, ⟨4, _⟩ => ⟨S4, .i32⟩
  | .hbm, ⟨5, _⟩ => ⟨S8x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x8192, .f32⟩
  | .hbm, ⟨13, _⟩ => ⟨S8x8192, .f32⟩
  | .hbm, ⟨14, _⟩ => ⟨S8x8192, .f32⟩
  | .hbm, ⟨15, _⟩ => ⟨S_, .i32⟩
  | .hbm, ⟨16, _⟩ => ⟨S_, .i32⟩
  | .hbm, ⟨17, _⟩ => ⟨S_, .f32⟩
  | .hbm, ⟨18, _⟩ => ⟨S8x8192, .f32⟩
  | .hbm, ⟨19, _⟩ => ⟨S8x8192, .f32⟩
  | .hbm, ⟨20, _⟩ => ⟨S_, .f32⟩
  | .hbm, ⟨21, _⟩ => ⟨S8x8192, .f32⟩
  | .hbm, ⟨22, _⟩ => ⟨S8x8192, .f32⟩
  | .hbm, ⟨23, _⟩ => ⟨S28672x2048x1, .i32⟩
  | .hbm, ⟨24, _⟩ => ⟨S1x1x4, .i32⟩
  | .hbm, ⟨25, _⟩ => ⟨S28672x2048x4, .i32⟩
  | .hbm, ⟨26, _⟩ => ⟨S28672x2048x4, .i32⟩
  | .hbm, ⟨27, _⟩ => ⟨S28672x2048x4, .i32⟩
  | .hbm, ⟨28, _⟩ => ⟨S_, .i32⟩
  | .hbm, ⟨29, _⟩ => ⟨S28672x2048x4, .i32⟩
  | .hbm, ⟨30, _⟩ => ⟨S28672x2048x4, .i32⟩
  | .hbm, ⟨31, _⟩ => ⟨S_, .i32⟩
  | .hbm, ⟨32, _⟩ => ⟨S28672x2048x4, .i32⟩
  | .hbm, ⟨33, _⟩ => ⟨S28672x2048x4, .i32⟩
  | .hbm, ⟨34, _⟩ => ⟨S28672x8192, .i32⟩
  | .hbm, ⟨35, _⟩ => ⟨S28672x8192, .f32⟩
  | .hbm, ⟨36, _⟩ => ⟨S8x28672, .f32⟩
  | .hbm, ⟨37, _⟩ => ⟨S_, .f32⟩
  | .hbm, ⟨38, _⟩ => ⟨S_, .f32⟩
  | .hbm, ⟨39, _⟩ => ⟨S8x28672, .f32⟩
  | .hbm, ⟨40, _⟩ => ⟨S8x28672, .f32⟩
  | .hbm, ⟨41, _⟩ => ⟨S1x28672, .f32⟩
  | .hbm, ⟨42, _⟩ => ⟨S8x28672, .f32⟩
  | .hbm, ⟨43, _⟩ => ⟨S8x28672, .f32⟩
  | _, _ => ⟨S8x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_c_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_v13 : Ref sig .tc := ⟨.hbm, 29, rfl⟩
abbrev main_v14 : Ref sig .tc := ⟨.hbm, 30, rfl⟩
abbrev main_c_5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]

class Facts₀ : Prop where
  reducesTo_S8x8192_S_d0_1 : S8x8192.ReducesTo [0, 1] S_
  h_S_ : 0 < S_.numel
  bcast_S_S8x8192 : S_.BroadcastsInDim S8x8192 (![] : Fin 0 → Fin S8x8192.rank)
  bcast_S28672x2048_S28672x2048x1_0_1 : S28672x2048.BroadcastsInDim S28672x2048x1 (![0, 1] : Fin 2 → Fin S28672x2048x1.rank)
  bcast_S4_S1x1x4_2 : S4.BroadcastsInDim S1x1x4 (![2] : Fin 1 → Fin S1x1x4.rank)
  bcast_S28672x2048x1_S28672x2048x4_0_1_2 : S28672x2048x1.BroadcastsInDim S28672x2048x4 (![0, 1, 2] : Fin 3 → Fin S28672x2048x4.rank)
  bcast_S1x1x4_S28672x2048x4_0_1_2 : S1x1x4.BroadcastsInDim S28672x2048x4 (![0, 1, 2] : Fin 3 → Fin S28672x2048x4.rank)
  bcast_S_S28672x2048x4 : S_.BroadcastsInDim S28672x2048x4 (![] : Fin 0 → Fin S28672x2048x4.rank)
  shapeCasts_S28672x2048x4_S28672x8192 : S28672x2048x4.ShapeCasts S28672x8192
  shapeCasts_S1_S_ : S1.ShapeCasts S_
  bcast_S_S8x28672 : S_.BroadcastsInDim S8x28672 (![] : Fin 0 → Fin S8x28672.rank)
  bcast_S28672_S1x28672_1 : S28672.BroadcastsInDim S1x28672 (![1] : Fin 1 → Fin S1x28672.rank)
  bcast_S1x28672_S8x28672_0_1 : S1x28672.BroadcastsInDim S8x28672 (![0, 1] : Fin 2 → Fin S8x28672.rank)
  dot_S8x8192_S28672x8192_S8x28672_1_1_0_0_n_n_wf : DotDims.WF S8x8192 S28672x8192 S8x28672 [1] [1] [0] [0] [] []

variable [Facts₀]

def dot_S8x8192_S28672x8192_S8x28672_1_1_0_0_n_n : DotDims S8x8192 S28672x8192 S8x28672 where
  lhsContracting := [1]
  rhsContracting := [1]
  lhsNonContracting := [0]
  rhsNonContracting := [0]
  lhsBatch := []
  rhsBatch := []
  wf := dot_S8x8192_S28672x8192_S8x28672_1_1_0_0_n_n_wf

class Facts : Prop extends Facts₀ where

variable [Facts]
-- ==== Proof.Quant.lean ====
/-
  The activation quantization both programs share.

  From the activations `x` both programs compute, by the same operations in the same order, the scale
  `act = max (max |x|, 1e-5) / 127` and the quantized activations `xq = min (127, max (-128, round (x / act)))`.
  Nothing below opens the maximum over the array, the quotient or the rounding: whatever extended real the
  rounding yields, the clip puts it between `-128` and `127`, so every quantized activation is a real number.
  That is the only fact about them the equivalence uses.
-/
import Idealize.ShloMosaic.PureOps
import Idealize.ShloMosaic.PureOps.Ideal

noncomputable section

namespace Cert.Ternary

open Idealize.ShloMosaic

/-- The activations' shape, and the shape of a scalar. -/
abbrev Sx : Shape := ⟨2, ![8, 8192]⟩
abbrev S0 : Shape := ⟨0, ![]⟩

theorem red_all : Sx.ReducesTo [0, 1] S0 := by decide
theorem pos0 : 0 < S0.numel := by decide
theorem bc0x : S0.BroadcastsInDim Sx (![] : Fin 0 → Fin Sx.rank) := by decide

variable {F : FTy → Type} [FloatOps F]

/-- The activation scale: the largest magnitude, at least `1e-5`, over `127`. -/
def act (x : FVec F Sx .f32) : FVec F S0 .f32 :=
  Host.divf (maximumf (Host.reduce FloatOps.maximumf (Host.absf x) (constant S0 .f32 0xFF800000#32) red_all pos0)
    (constant S0 .f32 0x3727C5AC#32)) (constant S0 .f32 0x42FE0000#32)

/-- The quantized activations: `x / act` rounded to nearest even, clipped to `[-128, 127]`. -/
def xq (x : FVec F Sx .f32) : FVec F Sx .f32 :=
  minimumf (broadcastInDim Sx ![] bc0x (sitofp .f32 (constantI S0 32 127#32)))
    (maximumf (broadcastInDim Sx ![] bc0x (sitofp .f32 (constantI S0 32 4294967168#32)))
      (Host.roundeven (Host.divf x (broadcastInDim Sx ![] bc0x (act x)))))

/-- An extended real clipped between two reals is a real. -/
theorem clip_real (a b : ℝ) (z : EReal) : ∃ r : ℝ, min (b : EReal) (max (a : EReal) z) = (r : EReal) := by
  have h1 : min (b : EReal) (max (a : EReal) z) ≠ ⊤ :=
    ne_top_of_le_ne_top (EReal.coe_ne_top b) (min_le_left _ _)
  have h2 : min (b : EReal) (max (a : EReal) z) ≠ ⊥ := by
    have h : ((min b a : ℝ) : EReal) ≤ min (b : EReal) (max (a : EReal) z) :=
      le_min (EReal.coe_le_coe_iff.2 (min_le_left _ _))
        ((EReal.coe_le_coe_iff.2 (min_le_right _ _)).trans (le_max_left _ _))
    exact ne_bot_of_le_ne_bot (EReal.coe_ne_bot _) h
  exact ⟨_, (EReal.coe_toReal h1 h2).symm⟩

/-- Every quantized activation is a real number, whatever the activations are. -/
theorem xq_real (x : FVec Ideal Sx .f32) (i : Sx.Idx) : ∃ r : ℝ, xq x i = (r : EReal) :=
  clip_real _ _ _

end Cert.Ternary

end
-- ==== Proof.Fields.lean ====
/-
  The two-bit fields of a packed 32-bit word.

  A word `p` packs four ternary codes, code `s` in bits `2s` and `2s + 1`: it is digit `s` of the word's unsigned
  value in base four, `field p s`. One program isolates the field in place — the word masked with `3 · 4^s` is
  `field p s · 4^s`, a small non-negative number whatever the word's higher bits and sign —, the other moves it down
  first: the word shifted right arithmetically by `2s` and masked with `3` is `field p s` (the sign bits the shift
  brings in sit above bit 1), and one less than that, as a signed number, is `field p s - 1`, also at `field p s = 0`,
  where the subtraction wraps to the all-ones word, which reads `-1`.
-/
import Mathlib.Tactic.Ring
import Mathlib.Tactic.NormNum
import Idealize.ShloMosaic.PureOps.Float

namespace Cert.Ternary

open Idealize.ShloMosaic

/-- Masking a natural number with `3 · 2^s` keeps its base-four digit at bit `s`, in place. -/
theorem and_mask (q s : ℕ) : q &&& (3 * 2 ^ s) = (q / 2 ^ s % 4) * 2 ^ s := by
  apply Nat.eq_of_testBit_eq; intro n
  rw [Nat.testBit_and, show (3 : ℕ) = 2 ^ 2 - 1 from rfl, show (4 : ℕ) = 2 ^ 2 from rfl,
    Nat.testBit_mul_two_pow, Nat.testBit_mul_two_pow, Nat.testBit_two_pow_sub_one, Nat.testBit_mod_two_pow,
    Nat.testBit_div_two_pow]
  by_cases h : s ≤ n
  · simp [h, Nat.add_sub_cancel' h, Bool.and_comm]
  · simp [h]

/-- Code `s` of a packed word: bits `2s` and `2s + 1` of its unsigned value. -/
def field (p : BitVec 32) (s : ℕ) : ℕ := p.toNat / 2 ^ (2 * s) % 4

theorem field_lt (p : BitVec 32) (s : ℕ) : field p s < 4 := Nat.mod_lt _ (by decide)

/-- The word masked with `3 · 4^s`, read as a signed integer, is `field p s · 4^s` (for the four fields of the low byte). -/
theorem masked_toInt (p mk : BitVec 32) (s : ℕ) (hs : s < 4) (hm : mk.toNat = 3 * 2 ^ (2 * s)) :
    (IntOp.andi p mk).toInt = (field p s : ℤ) * 2 ^ (2 * s) := by
  have hf := field_lt p s
  have hn : (IntOp.andi p mk).toNat = field p s * 2 ^ (2 * s) := by
    show (p &&& mk).toNat = _
    rw [BitVec.toNat_and, hm, and_mask]; rfl
  have hpow : 2 ^ (2 * s) ≤ 64 := by
    calc 2 ^ (2 * s) ≤ 2 ^ 6 := Nat.pow_le_pow_right (by decide) (by omega)
      _ = 64 := by norm_num
  have hlt : 2 * (IntOp.andi p mk).toNat < 2 ^ 32 := by
    rw [hn]
    have : field p s * 2 ^ (2 * s) ≤ 3 * 64 := Nat.mul_le_mul (by omega) hpow
    omega
  rw [BitVec.toInt_eq_toNat_of_lt hlt, hn]
  push_cast; ring

/-- The word shifted right arithmetically by `2s`, masked with `3`, less one, read as a signed integer, is
    `field p s - 1`: a number among `-1, 0, 1, 2`. -/
theorem decoded_toInt (p amt : BitVec 32) (s : ℕ) (hs : s < 4) (ha : amt.toNat = 2 * s) :
    (IntOp.subi (IntOp.andi (IntOp.shrsi .host p amt) 3#32) 1#32).toInt = (field p s : ℤ) - 1 := by
  have hf := field_lt p s
  have hsh : IntOp.shrsi .host p amt = p.sshiftRight (2 * s) := by
    unfold IntOp.shrsi
    rw [if_pos (by omega), BitVec.sshiftRight', ha]
  rw [hsh]
  set y := p.sshiftRight (2 * s) with hy
  have hyI : y.toInt = p.toInt / 2 ^ (2 * s) := by
    rw [hy, BitVec.toInt_sshiftRight, Int.shiftRight_eq_div_pow]; norm_cast
  have hpI := BitVec.toInt_eq_toNat_cond p
  have hyC := BitVec.toInt_eq_toNat_cond y
  have hpl := p.isLt
  have hyl := y.isLt
  have hz : (IntOp.andi y 3#32).toNat = field p s := by
    show (y &&& 3#32).toNat = _
    rw [BitVec.toNat_and, show (3#32 : BitVec 32).toNat = 2 ^ 2 - 1 from rfl, Nat.and_two_pow_sub_one_eq_mod]
    unfold field
    obtain rfl | rfl | rfl | rfl : s = 0 ∨ s = 1 ∨ s = 2 ∨ s = 3 := by omega
    all_goals (norm_num at hyI ⊢; omega)
  have hsub : (IntOp.subi (IntOp.andi y 3#32) 1#32).toNat = (2 ^ 32 - 1 + field p s) % 2 ^ 32 := by
    show (IntOp.andi y 3#32 - 1#32).toNat = _
    rw [BitVec.toNat_sub, hz]; rfl
  rw [BitVec.toInt_eq_toNat_cond, hsub]
  split <;> omega

end Cert.Ternary
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.Regroup.lean ====
/-
  The law that joins the two programs.

  A row of 8192 activations `x` meets a row of 2048 packed words `w`, four ternary codes a word: position `4k + s` of
  the activations belongs to code `s` of word `k`. One program multiplies each activation by its code less one and
  adds up over the 8192 positions. The other keeps the four places apart: for place `s` it scales the activations of
  that place by `4^(-s)`, multiplies by the word's field left in place (`code · 4^s`), adds up over the 2048 words,
  adds the four sums, and takes the sum of all activations off at the end. Over the reals
  `(x · 4^(-s)) · (code · 4^s) = x · code` and `Σ x · code - Σ x = Σ x · (code - 1)`; both steps need the activations
  to be real numbers (at an infinite activation the difference of the two sums has no meaning), which is all the law
  asks of them.
-/
import proofs.«404982_j87471303951027_3_alg».proof.Proof.Fields
import proofs.«404982_j87471303951027_3_alg».proof.Proof.LibSums
import Mathlib.Tactic.Ring
import Mathlib.Tactic.NormNum

open scoped BigOperators

namespace Cert.Ternary

open Idealize.ShloMosaic

/-- Position `4k + s` of a row of 8192: place `s` of group `k`. -/
def at4 (k : Fin 2048) (s : Fin 4) : Fin 8192 := ⟨k.val * 4 + s.val, by omega⟩
/-- The group a position of a row of 8192 belongs to. -/
def grp (i : Fin 8192) : Fin 2048 := ⟨i.val / 4, by omega⟩
/-- The place of a position inside its group. -/
def plc (i : Fin 8192) : Fin 4 := ⟨i.val % 4, by omega⟩

theorem grp_at4 (k : Fin 2048) (s : Fin 4) : grp (at4 k s) = k := Fin.ext (by simp only [grp, at4]; omega)
theorem plc_at4 (k : Fin 2048) (s : Fin 4) : plc (at4 k s) = s := Fin.ext (by simp only [plc, at4]; omega)

/-- A sum over a row of 8192 positions, group by group. -/
theorem sum_by_fours {M : Type*} [AddCommMonoid M] (g : Fin 8192 → M) :
    ∑ i, g i = ∑ k : Fin 2048, ∑ s : Fin 4, g (at4 k s) := by
  let f : ℕ → M := fun n => if h : n < 8192 then g ⟨n, h⟩ else 0
  have hf : ∀ i : Fin 8192, f i.val = g i := fun i => dif_pos i.isLt
  have h : ∑ t : Fin 2048, ∑ r : Fin 4, f (t.val * 4 + r.val) = ∑ i : Fin 8192, f i.val :=
    Cert.LibSums.sum_blocks 2048 4 f
  rw [← Finset.sum_congr rfl (fun i _ => hf i), ← h]
  exact Finset.sum_congr rfl fun k _ => Finset.sum_congr rfl fun s _ => hf (at4 k s)

/-- The four per-place sums over the words, less the sum of the activations, is the one sum over the positions of
    activation times decoded code. `amt s` is the shift that brings field `s` down, `2s`. -/
theorem regroup (x : Fin 8192 → EReal) (hx : ∀ i, ∃ r : ℝ, x i = (r : EReal)) (w : Fin 2048 → BitVec 32)
    (amt : Fin 4 → BitVec 32) (ha : ∀ s : Fin 4, (amt s).toNat = 2 * s.val) :
    ((((∑ k : Fin 2048, (x (at4 k 0) * ((1 : ℝ) : EReal)) * (((IntOp.andi (w k) 3#32).toInt : ℝ) : EReal))
      + ∑ k : Fin 2048, (x (at4 k 1) * ((1 / 4 : ℝ) : EReal)) * (((IntOp.andi (w k) 12#32).toInt : ℝ) : EReal))
      + ∑ k : Fin 2048, (x (at4 k 2) * ((1 / 16 : ℝ) : EReal)) * (((IntOp.andi (w k) 48#32).toInt : ℝ) : EReal))
      + ∑ k : Fin 2048, (x (at4 k 3) * ((1 / 64 : ℝ) : EReal)) * (((IntOp.andi (w k) 192#32).toInt : ℝ) : EReal))
      - ∑ i : Fin 8192, x i
    = ∑ i : Fin 8192, x i * (((IntOp.subi (IntOp.andi (IntOp.shrsi .host (w (grp i)) (amt (plc i))) 3#32) 1#32).toInt : ℝ) : EReal) := by
  choose y hy using hx
  simp only [hy]
  simp only [← EReal.coe_mul, Cert.LibSums.sum_coe, ← EReal.coe_add, ← EReal.coe_sub]
  congr 1
  rw [sum_by_fours (fun i => y i * _), sum_by_fours y]
  simp only [Fin.sum_univ_four, grp_at4, plc_at4]
  have hD : ∀ (k : Fin 2048) (s : Fin 4),
      (((IntOp.subi (IntOp.andi (IntOp.shrsi .host (w k) (amt s)) 3#32) 1#32).toInt : ℤ) : ℝ) = (field (w k) s.val : ℝ) - 1 :=
    fun k s => by rw [decoded_toInt (w k) (amt s) s.val s.isLt (ha s)]; push_cast; ring
  have hM : ∀ (k : Fin 2048) (mk : BitVec 32) (s : ℕ) (_ : s < 4) (_ : mk.toNat = 3 * 2 ^ (2 * s)),
      (((IntOp.andi (w k) mk).toInt : ℤ) : ℝ) = (field (w k) s : ℝ) * 2 ^ (2 * s) :=
    fun k mk s hs hm => by rw [masked_toInt (w k) mk s hs hm]; push_cast; ring
  simp only [hD, hM _ 3#32 0 (by omega) rfl, hM _ 12#32 1 (by omega) rfl, hM _ 48#32 2 (by omega) rfl,
    hM _ 192#32 3 (by omega) rfl]
  simp only [← Finset.sum_add_distrib, ← Finset.sum_sub_distrib]
  refine Finset.sum_congr rfl fun k _ => ?_
  simp only [Fin.val_zero, Fin.val_one, Fin.val_two, show ((3 : Fin 4) : ℕ) = 3 from rfl]
  norm_num
  ring

end Cert.Ternary
-- ==== Proof.KHost.lean ====
/-
  What the kernel's region finds in the arrays the host operations before it computed.

  Besides the packed weights (an argument, untouched) the region's windows read four arrays computed on the host from the
  arguments: the quantized activations regrouped by place — entry `(s, b, k)` is activation `4k + s` of row `b` times
  `4^(-s)`, the table's entry `s` —, the row sums of the quantized activations as a column, the product of the weight
  scale and the activation scale as a `1 × 1` array, and the bias as a row. Each is stated first as the operations'
  composed term of the argument arrays (the quantization chain kept folded as `Ternary.xq` / `Ternary.act`), then read
  at an index over the extended reals.
-/
import proofs.«404982_j87471303951027_3_alg».proof.Proof.Gen.KernelIdeal.Frame
import proofs.«404982_j87471303951027_3_alg».proof.Proof.Quant
import proofs.«404982_j87471303951027_3_alg».proof.Proof.Regroup
import Idealize.ShloMosaic.Lib.StableHlo.Run
import Idealize.ShloMosaic.Lib.ValueIdx
import Idealize.ShloMosaic.Lib.Pipeline.Value
import Idealize.ShloMosaic.Lib.IdealHost
import Idealize.ShloMosaic.PureOps.Ideal.Laws

open scoped BigOperators

noncomputable section

namespace Cert.KernelIdeal.HostVals

open Cert.KernelIdeal Cert.KernelIdeal.Gen Idealize.ShloMosaic Idealize.ShloMosaic.TcCoe Idealize.SL.Sem
open Idealize.ShloMosaic.StableHlo Idealize.ShloMosaic.ValueIdx
open Cert.Ternary (xq act at4)

section Terms

variable {F : FTy → Type} [FloatOps F]

/-- The quantized activations regrouped by place and scaled by the table: `[8, 8192] → [8, 2048, 4] → [4, 8, 2048]`,
    times the table broadcast along its first axis. -/
def grouped (q : FVec F S8x8192 .f32) : FVec F S4x8x2048 .bf16 :=
  truncf .bf16 (mulf (transpose S4x8x2048 [2, 0, 1] (shapeCast S8x2048x4 q shapeCasts_S8x8192_S8x2048x4) transposes_S8x2048x4_S4x8x2048_2_0_1)
    (broadcastInDim S4x8x2048 ![0, 1, 2] bcast_S4x1x1_S4x8x2048_0_1_2
      (shapeCast S4x1x1 (fun i => FloatOps.ofBits .f32 (lit0 (S4.rowMajor i))) shapeCasts_S4_S4x1x1))) bitsLt_bf16_f32

/-- The row sums of the quantized activations, as a column. -/
def rowsum (q : FVec F S8x8192 .f32) : FVec F S8x1 .f32 :=
  broadcastInDim S8x1 ![0] bcast_S8_S8x1_0 (Host.reduceAdd q (constant S_ .f32 0x00000000#32) reducesTo_S8x8192_S8_d1 h_S_)

/-- The weight scale times the activation scale, as a `1 × 1` array. -/
def scale (ws : FVec F S1 .f32) (a : FVec F S_ .f32) : FVec F S1x1 .f32 :=
  shapeCast S1x1 (mulf (shapeCast S_ ws shapeCasts_S1_S_) a) shapeCasts_S_S1x1

/-- The bias as a row. -/
def biasRow (bs : FVec F S28672 .f32) : FVec F S1x28672 .f32 := shapeCast S1x28672 bs shapeCasts_S28672_S1x28672

variable (m : (ℓ : Loc nD τ sig) → Buf (Elt F) ℓ)

set_option maxHeartbeats 1600000 in
theorem v15_eq (c : Dev nD) : V m c main_v15 = grouped (xq (m ((c : Thread nD τ).loc main_arg0))) := by
  dsimp only [V]
  simp only [hostOps0, hostOps0_1, hostOps0_2, hostOps0_3, hostOps0_4, List.flatten_cons, List.flatten_nil, List.append_nil,
    List.cons_append, List.nil_append]
  after_results_simp
  rfl

theorem v9_eq (c : Dev nD) : V m c main_v9 = rowsum (xq (m ((c : Thread nD τ).loc main_arg0))) := by
  dsimp only [V]
  simp only [hostOps0, hostOps0_1, hostOps0_2, hostOps0_3, hostOps0_4, List.flatten_cons, List.flatten_nil, List.append_nil,
    List.cons_append, List.nil_append]
  after_results
  rfl

theorem v18_eq (c : Dev nD) :
    V m c main_v18 = scale (m ((c : Thread nD τ).loc main_arg2)) (act (m ((c : Thread nD τ).loc main_arg0))) := by
  dsimp only [V]
  simp only [hostOps0, hostOps0_1, hostOps0_2, hostOps0_3, hostOps0_4, List.flatten_cons, List.flatten_nil, List.append_nil,
    List.cons_append, List.nil_append]
  after_results
  rfl

theorem v19_eq (c : Dev nD) : V m c main_v19 = biasRow (m ((c : Thread nD τ).loc main_arg3)) := by
  dsimp only [V]
  simp only [hostOps0, hostOps0_1, hostOps0_2, hostOps0_3, hostOps0_4, List.flatten_cons, List.flatten_nil, List.append_nil,
    List.cons_append, List.nil_append]
  after_results
  rfl

end Terms

/-! ## Read at an index, over the extended reals -/

/-- Entry `(s, b, k)` of the regrouped activations is activation `4k + s` of row `b` times the table's entry `s`. -/
theorem grouped_apply (q : FVec Ideal S8x8192 .f32) (s : Fin 4) (b : Fin 8) (k : Fin 2048) :
    grouped q (ix3 s b k) = q (ix2 b (at4 k s)) * Ideal.ofBits .f32 (lit0 s) := by
  unfold grouped
  rw [truncf_apply, mulf_apply]
  congr 1
  · rw [transpose_apply [2, 0, 1] _ _ (ix3 s b k) (ix3 b k s) (fun a => by
      match a with
      | ⟨0, _⟩ => rfl
      | ⟨1, _⟩ => rfl
      | ⟨2, _⟩ => rfl)]
    exact shapeCast_apply _ _ (ix3 b k s) (ix2 b (at4 k s)) (by
      rw [Shape.rowMajor_val_two, Shape.rowMajor_val_three]
      show b.val * 8192 + (k.val * 4 + s.val) = (b.val * 2048 + k.val) * 4 + s.val
      omega)
  · rw [broadcastInDim_apply ![0, 1, 2] _ _ (ix3 s b k) (ix3 s (0 : Fin 1) (0 : Fin 1)) (fun a => by
      match a with
      | ⟨0, _⟩ => rfl
      | ⟨1, _⟩ => rfl
      | ⟨2, _⟩ => rfl)]
    rw [shapeCast_apply _ _ (ix3 s (0 : Fin 1) (0 : Fin 1)) (ix1 s) (by
      rw [Shape.rowMajor_val_one, Shape.rowMajor_val_three]
      show s.val = (s.val * 1 + 0) * 1 + 0
      omega)]
    show Ideal.ofBits .f32 (lit0 (S4.rowMajor (ix1 s))) = _
    congr 2
    exact Fin.ext (Shape.rowMajor_val_one _)

theorem S8x8192_reduces : S8x8192.Reduces [1] S8 := by decide

/-- Entry `(b, 0)` of the row sums is the sum of row `b`. -/
theorem rowsum_apply (q : FVec Ideal S8x8192 .f32) (b : Fin 8) :
    rowsum q (ix2 b (0 : Fin 1)) = ∑ i : Fin 8192, q (ix2 b i) := by
  unfold rowsum
  rw [broadcastInDim_apply ![0] _ _ (ix2 b (0 : Fin 1)) (ix1 b) (fun a => by
    match a with
    | ⟨0, _⟩ => rfl)]
  rw [hostReduceAdd_apply, Ideal.hostReduceAdd_single _ S8x8192_reduces]
  show Ideal.ofBits .f32 0x00000000#32 + _ = _
  rw [Ideal.ofBits_zero_f32, zero_add]
  exact Finset.sum_congr rfl fun k _ => congrArg q (Shape.idx_ext₂ rfl rfl)

/-- The one entry of the scale array is the weight scale times the activation scale. -/
theorem scale_apply (ws : FVec Ideal S1 .f32) (a : FVec Ideal S_ .f32) :
    scale ws a (ix2 (0 : Fin 1) (0 : Fin 1)) = ws (ix1 (0 : Fin 1)) * a ix0 := by
  unfold scale
  rw [shapeCast_apply _ _ (ix2 (0 : Fin 1) (0 : Fin 1)) ix0 (by
    rw [Shape.rowMajor_val_two]
    exact (Shape.rowMajorPi_zero _ _).trans rfl)]
  rw [mulf_apply]
  congr 1
  exact shapeCast_apply _ _ ix0 (ix1 (0 : Fin 1)) (by
    rw [Shape.rowMajor_val_one]
    exact (Shape.rowMajorPi_zero _ _).symm)

/-- Entry `(0, o)` of the bias row is the bias's entry `o`. -/
theorem biasRow_apply (bs : FVec Ideal S28672 .f32) (o : Fin 28672) :
    biasRow bs (ix2 (0 : Fin 1) o) = bs (ix1 o) := by
  unfold biasRow
  exact shapeCast_apply _ _ (ix2 (0 : Fin 1) o) (ix1 o) (by
    rw [Shape.rowMajor_val_one, Shape.rowMajor_val_two]
    show o.val = 0 * 28672 + o.val
    omega)

end Cert.KernelIdeal.HostVals

end
-- ==== Proof.LibDot.lean ====
/-
  A matrix product with the right operand contracted on its last axis, read at an index.

  For the dimension numbers "contract axis 1 of both operands, no batch axis" — an `M × K` array against an `N × K`
  array into `M × N` — the contraction index set has one axis of extent `K`, the left operand is read at
  `(row of the result, k)` and the right one at `(column of the result, k)`. So a sum over the contraction index set
  of anything that depends on the two operand indices is the sum over `k : Fin K` of it at `(m, k)` and `(n, k)`.
  General in `M`, `K`, `N` and in what is summed; a kernel's block product and a host's dot with these dimension
  numbers are both instances.
-/
import Idealize.ShloMosaic.PureOps.Ideal.Laws
import Idealize.ShloMosaic.Lib.ValueIdx
import Idealize.ShloMosaic.Lib.Pipeline.Value

open scoped BigOperators

noncomputable section

namespace Cert.LibDot

open Idealize.ShloMosaic Idealize.ShloMosaic.ValueIdx

variable (M K N : ℕ)

/-- The dimension numbers: contract axis 1 of both operands; the result's axes are the two free ones. -/
abbrev D : DotDims ⟨2, ![M, K]⟩ ⟨2, ![N, K]⟩ ⟨2, ![M, N]⟩ := DotDims.transposedRhs M K N

/-- The operand indices, coordinate by coordinate. -/
theorem lhs_0 (j : (⟨2, ![M, N]⟩ : Shape).Idx) (k : (D M K N).contr.Idx) : ((D M K N).lhsIdx j k 0 : ℕ) = j 0 := by
  simp [DotDims.lhsIdx, DotDims.transposedRhs]; rfl
theorem lhs_1 (j : (⟨2, ![M, N]⟩ : Shape).Idx) (k : (D M K N).contr.Idx) : ((D M K N).lhsIdx j k 1 : ℕ) = k ⟨0, (Nat.one_pos : 0 < 1)⟩ := by
  simp [DotDims.lhsIdx, DotDims.transposedRhs]; rfl
theorem rhs_0 (j : (⟨2, ![M, N]⟩ : Shape).Idx) (k : (D M K N).contr.Idx) : ((D M K N).rhsIdx j k 0 : ℕ) = j 1 := by
  simp [DotDims.rhsIdx, DotDims.transposedRhs]; rfl
theorem rhs_1 (j : (⟨2, ![M, N]⟩ : Shape).Idx) (k : (D M K N).contr.Idx) : ((D M K N).rhsIdx j k 1 : ℕ) = k ⟨0, (Nat.one_pos : 0 < 1)⟩ := by
  simp [DotDims.rhsIdx, DotDims.transposedRhs]; rfl

/-- A sum over the contraction index set is the sum over the shared axis's coordinate. -/
theorem sum_contr {α : Type*} [AddCommMonoid α] (f : (⟨2, ![M, K]⟩ : Shape).Idx → (⟨2, ![N, K]⟩ : Shape).Idx → α)
    (j : (⟨2, ![M, N]⟩ : Shape).Idx) :
    ∑ k : (D M K N).contr.Idx, f ((D M K N).lhsIdx j k) ((D M K N).rhsIdx j k)
      = ∑ k : Fin K, f (ix2 (j 0) k) (ix2 (j 1) k) := by
  rw [← Equiv.sum_comp (contrEquiv1 (D M K N) K rfl rfl).symm]
  refine Finset.sum_congr rfl fun k _ => ?_
  congr 1
  · exact Shape.idx_ext₂ (lhs_0 M K N j _) ((lhs_1 M K N j _).trans (contrEquiv1_symm_val (D M K N) K rfl rfl k))
  · exact Shape.idx_ext₂ (rhs_0 M K N j _) ((rhs_1 M K N j _).trans (contrEquiv1_symm_val (D M K N) K rfl rfl k))

end Cert.LibDot

end
-- ==== Proof.KBody.lean ====
/-
  What one grid point's body leaves in the output block, entry by entry.

  The body reads the block of 1024 rows of packed words four times, each time masking another two-bit field in place
  (`3`, `12`, `48`, `192`) and converting it to a number, multiplies the slab of regrouped activations for that place
  against it — entry `(b, q)` of a product is the sum over the 2048 words `k` of activation `(s, b, k)` times the
  masked field of word `(q, k)` —, adds the four products, subtracts the row sums, multiplies by the scale and adds the
  bias row. Over the extended reals every format change is the identity and the products are exact sums.
-/
import proofs.«404982_j87471303951027_3_alg».proof.Proof.Gen.KernelIdeal.Frame
import proofs.«404982_j87471303951027_3_alg».proof.Proof.LibDot
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Body

open Cert.KernelIdeal Cert.KernelIdeal.Gen Idealize.ShloMosaic Idealize.ShloMosaic.ValueIdx

/-- A masked field of a packed word as the number the conversion to a float reads. -/
abbrev fieldAt (p mk : BitVec 32) : EReal := (((IntOp.andi p mk).toInt : ℝ) : EReal)

/-- The body's dimension numbers are those of a product against the right operand's rows. -/
theorem dot_eq : dot_S8x2048_S1024x2048_S8x1024_1_1_0_0_n_n = Cert.LibDot.D 8 2048 1024 := rfl

/-- One block product at an entry: the sum over the words of a row. -/
theorem product_apply (l : FVec Ideal S8x2048 .bf16) (r : FVec Ideal S1024x2048 .bf16) (b : Fin 8) (q : Fin 1024) :
    matmul dot_S8x2048_S1024x2048_S8x1024_1_1_0_0_n_n none l r (constant S8x1024 .f32 0x00000000#32) (ix2 b q)
      = ∑ k : Fin 2048, l (ix2 b k) * r (ix2 q k) := by
  simp only [matmul]
  rw [Ideal.matmul_constant_zero_apply, dot_eq]
  exact Cert.LibDot.sum_contr 8 2048 1024 (fun a c => l a * r c) (ix2 b q)

/-- The partial sum of the first three places. -/
theorem pay2_apply (v1 : Vec Ideal S1024x2048 .i32) (v5 : Vec Ideal S1x8x2048 .bf16) (v9 : Vec Ideal S1024x2048 .i32)
    (v13 : Vec Ideal S1x8x2048 .bf16) (v17 : Vec Ideal S1024x2048 .i32) (v21 : Vec Ideal S1x8x2048 .bf16) (b : Fin 8) (q : Fin 1024) :
    k0_pay2 v1 v5 v9 v13 v17 v21 (ix2 b q)
      = ((∑ k : Fin 2048, v5 (ix3 (0 : Fin 1) b k) * fieldAt (v1 (ix2 q k)) 3#32)
          + ∑ k : Fin 2048, v13 (ix3 (0 : Fin 1) b k) * fieldAt (v9 (ix2 q k)) 12#32)
          + ∑ k : Fin 2048, v21 (ix3 (0 : Fin 1) b k) * fieldAt (v17 (ix2 q k)) 48#32 := by
  unfold k0_pay2
  rw [addf_apply, addf_apply, addf_apply, product_apply, product_apply, product_apply]
  show (Ideal.ofBits .f32 0x00000000#32 + _ + _) + _ = _
  rw [Ideal.ofBits_zero_f32, zero_add]
  simp only [shapeCast_1ab_ab_apply]
  rfl

/-- The fourth place's masked fields. -/
theorem pay3_apply (v25 : Vec Ideal S1024x2048 .i32) (q : Fin 1024) (k : Fin 2048) :
    k0_pay3 v25 (ix2 q k) = fieldAt (v25 (ix2 q k)) 192#32 := rfl

/-- The fourth place's slab of activations. -/
theorem pay4_apply (v29 : Vec Ideal S1x8x2048 .bf16) (b : Fin 8) (k : Fin 2048) :
    k0_pay4 v29 (ix2 b k) = v29 (ix3 (0 : Fin 1) b k) := by
  unfold k0_pay4
  exact shapeCast_1ab_ab_apply _ _ b k

/-- The stored value: the fourth product added, the row sum taken off, the scale and the bias applied. -/
theorem pay1_apply (v24 : FVec Ideal S8x1024 .f32) (v28 : FVec Ideal S1024x2048 .bf16) (v30 : FVec Ideal S8x2048 .bf16)
    (v33 : Vec Ideal S1x1 .f32) (v35 : Vec Ideal S8x1 .f32) (v39 : Vec Ideal S1x1024 .f32) (b : Fin 8) (q : Fin 1024) :
    k0_pay1 v24 v28 v30 v33 v35 v39 (ix2 b q)
      = ((v24 (ix2 b q) + ∑ k : Fin 2048, v30 (ix2 b k) * v28 (ix2 q k)) - v35 (ix2 b (0 : Fin 1)))
          * v33 (ix2 (0 : Fin 1) (0 : Fin 1)) + v39 (ix2 (0 : Fin 1) q) := by
  unfold k0_pay1
  rw [addf_apply, mulf_apply, subf_apply, addf_apply, product_apply]
  simp only [shapeCast_self]
  rw [broadcastTo_1b_ab_apply]
  congr 2
  · congr 1
    exact broadcastTo_apply _ _ (ix2 b q) (ix2 b (0 : Fin 1)) (fun a => by
      match a with
      | ⟨0, _⟩ => rfl
      | ⟨1, _⟩ => rfl)
  · show extractAt ![0, 0] v33 _ = _
    unfold extractAt
    exact congrArg v33 (funext fun a => by match a with | ⟨0, _⟩ => rfl | ⟨1, _⟩ => rfl)

theorem hz2 : (![0, 0] : Fin 2 → Nat) = fun _ => 0 := funext fun a => by fin_cases a <;> rfl

/-- Slab `s` of the regrouped activations, read out of the whole array. -/
theorem slab_apply (x1 : Vec Ideal S4x8x2048 .bf16) (s : Fin 4) (inb) (b : Fin 8) (k : Fin 2048) :
    View.ld x1 (Rect.unit (s := S4x8x2048) ![s.val, 0, 0] S1x8x2048.size inb) (ix3 (0 : Fin 1) b k) = x1 (ix3 s b k) := by
  show x1 _ = x1 _
  refine congrArg x1 (funext fun a => Fin.ext ?_)
  match a with
  | ⟨0, _⟩ => show s.val + 1 * 0 = s.val; omega
  | ⟨1, _⟩ => show 0 + 1 * b.val = b.val; omega
  | ⟨2, _⟩ => show 0 + 1 * k.val = k.val; omega

/-- THE BLOCK a point's body leaves, entry `(b, q)`: the four places' sums over the words of row `q`, less the row
    sum of row `b`, times the scale, plus the bias of column `q`. -/
theorem out_apply (x0 : Vec Ideal S1024x2048 .i32) (x1 : Vec Ideal S4x8x2048 .bf16) (x2 : Vec Ideal S8x1 .f32)
    (x3 : Vec Ideal S1x1024 .f32) (x4 : Vec Ideal S1x1 .f32) (b : Fin 8) (q : Fin 1024) :
    out0_5 x0 x1 x2 x3 x4 (ix2 b q)
      = (((((∑ k : Fin 2048, x1 (ix3 (0 : Fin 4) b k) * fieldAt (x0 (ix2 q k)) 3#32)
            + ∑ k : Fin 2048, x1 (ix3 (1 : Fin 4) b k) * fieldAt (x0 (ix2 q k)) 12#32)
            + ∑ k : Fin 2048, x1 (ix3 (2 : Fin 4) b k) * fieldAt (x0 (ix2 q k)) 48#32)
            + ∑ k : Fin 2048, x1 (ix3 (3 : Fin 4) b k) * fieldAt (x0 (ix2 q k)) 192#32)
          - x2 (ix2 b (0 : Fin 1))) * x4 (ix2 (0 : Fin 1) (0 : Fin 1)) + x3 (ix2 (0 : Fin 1) q) := by
  unfold out0_5
  rw [View.canon_unit_zero hz2]
  simp only [View.ld_unit_zero (S := S1024x2048) hz2, View.ld_unit_zero (S := S8x1) hz2,
    View.ld_unit_zero (S := S1x1024) hz2, View.ld_unit_zero (S := S1x1) hz2]
  rw [pay1_apply, pay2_apply]
  simp only [pay3_apply, pay4_apply]
  simp only [r0_1, r0_2, r0_3, r0_4]
  have e0 : ∀ k : Fin 2048, View.ld x1 (Rect.unit (s := S4x8x2048) ![0, 0, 0] ![1, 8, 2048] inb_S4x8x2048_S1x8x2048_0_0_0)
      (ix3 (0 : Fin 1) b k) = x1 (ix3 (0 : Fin 4) b k) := fun k => slab_apply x1 0 _ b k
  have e1 : ∀ k : Fin 2048, View.ld x1 (Rect.unit (s := S4x8x2048) ![1, 0, 0] ![1, 8, 2048] inb_S4x8x2048_S1x8x2048_1_0_0)
      (ix3 (0 : Fin 1) b k) = x1 (ix3 (1 : Fin 4) b k) := fun k => slab_apply x1 1 _ b k
  have e2 : ∀ k : Fin 2048, View.ld x1 (Rect.unit (s := S4x8x2048) ![2, 0, 0] ![1, 8, 2048] inb_S4x8x2048_S1x8x2048_2_0_0)
      (ix3 (0 : Fin 1) b k) = x1 (ix3 (2 : Fin 4) b k) := fun k => slab_apply x1 2 _ b k
  have e3 : ∀ k : Fin 2048, View.ld x1 (Rect.unit (s := S4x8x2048) ![3, 0, 0] ![1, 8, 2048] inb_S4x8x2048_S1x8x2048_3_0_0)
      (ix3 (0 : Fin 1) b k) = x1 (ix3 (3 : Fin 4) b k) := fun k => slab_apply x1 3 _ b k
  simp only [e0, e1, e2, e3]

end Cert.KernelIdeal.Body

end
-- ==== Proof.KFinal.lean ====
/-
  The kernel's result as one function of its arguments.

  The grid has 28 points; point `t` reads rows `1024 t … 1024 t + 1023` of the packed weights and the matching 1024
  entries of the bias, the whole of the three small arrays, and writes columns `1024 t … 1024 t + 1023` of the result.
  So entry `(b, q)` of what point `t` writes is entry `(b, 1024 t + q)` of one array, `kerOut`: for output column
  `o`, the four places' sums over the 2048 words of weight row `o` of regrouped activation times masked field, less
  the row sum of the quantized activations, times the scale, plus the bias of column `o`. The 28 blocks tile the
  result, so after the run the result array is that function of the arguments.
-/
import proofs.«404982_j87471303951027_3_alg».proof.Proof.Gen.KernelIdeal.Value
import proofs.«404982_j87471303951027_3_alg».proof.Proof.KHost
import proofs.«404982_j87471303951027_3_alg».proof.Proof.KBody

set_option maxRecDepth 16384

open scoped BigOperators

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)
open Cert.Ternary (xq act at4)
open Cert.KernelIdeal.HostVals Cert.KernelIdeal.Body

/-- Entry `(b, o)` of the kernel's result. -/
def kerEntry (x : FVec Ideal S8x8192 .f32) (p : IVec S28672x2048 32) (ws : FVec Ideal S1 .f32) (bs : FVec Ideal S28672 .f32)
    (b : Fin 8) (o : Fin 28672) : EReal :=
  (((((∑ k : Fin 2048, grouped (xq x) (ix3 (0 : Fin 4) b k) * fieldAt (p (ix2 o k)) 3#32)
        + ∑ k : Fin 2048, grouped (xq x) (ix3 (1 : Fin 4) b k) * fieldAt (p (ix2 o k)) 12#32)
        + ∑ k : Fin 2048, grouped (xq x) (ix3 (2 : Fin 4) b k) * fieldAt (p (ix2 o k)) 48#32)
        + ∑ k : Fin 2048, grouped (xq x) (ix3 (3 : Fin 4) b k) * fieldAt (p (ix2 o k)) 192#32)
      - rowsum (xq x) (ix2 b (0 : Fin 1))) * scale ws (act x) (ix2 (0 : Fin 1) (0 : Fin 1)) + biasRow bs (ix2 (0 : Fin 1) o)

/-- The kernel's result array. -/
def kerOut (x : FVec Ideal S8x8192 .f32) (p : IVec S28672x2048 32) (ws : FVec Ideal S1 .f32) (bs : FVec Ideal S28672 .f32) :
    FVec Ideal S8x28672 .f32 := fun i => kerEntry x p ws bs (i 0) (i 1)

variable (m : (ℓ : Loc nD τ sig) → Buf (Elt Ideal) ℓ) (ρ : Dev nD → PrngReg)

/-- The printed index maps over the 28 points: the packed weights' and the bias's and the result's blocks move with the
    point, the other windows stay on their one block. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

theorem t_lt (t : Fin cfg0.N) : t.val < 28 := lt_of_lt_of_eq t.isLt N_0

/-- Row (or column) `q` of block `t` in the whole array. -/
def inBlock (t : Fin cfg0.N) (q : Fin 1024) : Fin 28672 := ⟨t.val * 1024 + q.val, by have := t_lt t; omega⟩

theorem blk0 (c : Dev nD) (t : Fin cfg0.N) (q : Fin 1024) (k : Fin 2048) :
    iblk m c 0 t (ix2 q k) = m ((c : Thread nD τ).loc main_arg1) (ix2 (inBlock t q) k) := by
  rw [← V_main_arg1 m c]
  show V m c main_arg1 (((cfg0.win 0).blk t).view.emb (ix2 q k)) = V m c main_arg1 (ix2 (inBlock t q) k)
  obtain ⟨e0, e1, -⟩ := idx_facts t
  refine congrArg _ (funext fun a => Fin.ext ?_)
  match a with
  | ⟨0, _⟩ => show win0_0.index t (0 : Fin 2) * 1024 + 1 * q.val = t.val * 1024 + q.val; omega
  | ⟨1, _⟩ => show win0_0.index t (1 : Fin 2) * 2048 + 1 * k.val = k.val; omega

theorem blk1 (c : Dev nD) (t : Fin cfg0.N) (s : Fin 4) (b : Fin 8) (k : Fin 2048) :
    iblk m c 1 t (ix3 s b k) = grouped (F := Ideal) (xq (m ((c : Thread nD τ).loc main_arg0))) (ix3 s b k) := by
  rw [← v15_eq m c]
  show V m c main_v15 (((cfg0.win 1).blk t).view.emb (ix3 s b k)) = V m c main_v15 (ix3 s b k)
  obtain ⟨-, -, e0, e1, e2, -⟩ := idx_facts t
  refine congrArg _ (funext fun a => Fin.ext ?_)
  match a with
  | ⟨0, _⟩ => show win0_1.index t (0 : Fin 3) * 4 + 1 * s.val = s.val; omega
  | ⟨1, _⟩ => show win0_1.index t (1 : Fin 3) * 8 + 1 * b.val = b.val; omega
  | ⟨2, _⟩ => show win0_1.index t (2 : Fin 3) * 2048 + 1 * k.val = k.val; omega

theorem blk2 (c : Dev nD) (t : Fin cfg0.N) (b : Fin 8) :
    iblk m c 2 t (ix2 b (0 : Fin 1)) = rowsum (F := Ideal) (xq (m ((c : Thread nD τ).loc main_arg0))) (ix2 b (0 : Fin 1)) := by
  rw [← v9_eq m c]
  show V m c main_v9 (((cfg0.win 2).blk t).view.emb (ix2 b (0 : Fin 1))) = V m c main_v9 (ix2 b (0 : Fin 1))
  obtain ⟨-, -, -, -, -, e0, e1, -⟩ := idx_facts t
  refine congrArg _ (funext fun a => Fin.ext ?_)
  match a with
  | ⟨0, _⟩ => show win0_2.index t (0 : Fin 2) * 8 + 1 * b.val = b.val; omega
  | ⟨1, _⟩ => show win0_2.index t (1 : Fin 2) * 1 + 1 * 0 = 0; omega

theorem blk3 (c : Dev nD) (t : Fin cfg0.N) (q : Fin 1024) :
    iblk m c 3 t (ix2 (0 : Fin 1) q) = biasRow (F := Ideal) (m ((c : Thread nD τ).loc main_arg3)) (ix2 (0 : Fin 1) (inBlock t q)) := by
  rw [← v19_eq m c]
  show V m c main_v19 (((cfg0.win 3).blk t).view.emb (ix2 (0 : Fin 1) q)) = V m c main_v19 (ix2 (0 : Fin 1) (inBlock t q))
  obtain ⟨-, -, -, -, -, -, -, e0, e1, -⟩ := idx_facts t
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * q.val = t.val * 1024 + q.val; omega

theorem blk4 (c : Dev nD) (t : Fin cfg0.N) :
    iblk m c 4 t (ix2 (0 : Fin 1) (0 : Fin 1))
      = scale (F := Ideal) (m ((c : Thread nD τ).loc main_arg2)) (act (m ((c : Thread nD τ).loc main_arg0))) (ix2 (0 : Fin 1) (0 : Fin 1)) := by
  rw [← v18_eq m c]
  show V m c main_v18 (((cfg0.win 4).blk t).view.emb (ix2 (0 : Fin 1) (0 : Fin 1))) = V m c main_v18 (ix2 (0 : Fin 1) (0 : Fin 1))
  obtain ⟨-, -, -, -, -, -, -, -, -, e0, e1, -⟩ := idx_facts t
  refine congrArg _ (funext fun a => Fin.ext ?_)
  match a with
  | ⟨0, _⟩ => show win0_4.index t (0 : Fin 2) * 1 + 1 * 0 = 0; omega
  | ⟨1, _⟩ => show win0_4.index t (1 : Fin 2) * 1 + 1 * 0 = 0; omega

theorem emb5 (t : Fin cfg0.N) (b : Fin 8) (q : Fin 1024) :
    ((cfg0.win 5).blk t).view.emb (ix2 b q) = ix2 b (inBlock t q) := by
  obtain ⟨-, -, -, -, -, -, -, -, -, -, -, e0, e1⟩ := idx_facts t
  refine funext fun a => Fin.ext ?_
  match a with
  | ⟨0, _⟩ => show win0_5.index t (0 : Fin 2) * 8 + 1 * b.val = b.val; omega
  | ⟨1, _⟩ => show win0_5.index t (1 : Fin 2) * 1024 + 1 * q.val = t.val * 1024 + q.val; omega

/-- WHAT POINT `t` WRITES BACK is block `t` of the kernel's result array. -/
theorem flushed_eq (c : Dev nD) (t : Fin cfg0.N) :
    (dats m 0 c).flushed 5 t = ((cfg0.win 5).blk t).view.read (Elt Ideal)
      (kerOut (m ((c : Thread nD τ).loc main_arg0)) (m ((c : Thread nD τ).loc main_arg1)) (m ((c : Thread nD τ).loc main_arg2))
        (m ((c : Thread nD τ).loc main_arg3))) := by
  show (cfg0.win 5).cut (grid0.coords t) ((dats m 0 c).after 5 t) = _
  rw [after0_5]
  funext j
  obtain ⟨b, q, rfl⟩ : ∃ (b : Fin 8) (q : Fin 1024), j = ix2 b q := ⟨j 0, j 1, eq_ix2 j⟩
  show out0_5 (iblk m c 0 t) (iblk m c 1 t) (iblk m c 2 t) (iblk m c 3 t) (iblk m c 4 t) (ix2 b q)
    = kerOut _ _ _ _ (((cfg0.win 5).blk t).view.emb (ix2 b q))
  rw [emb5 t b q]
  refine (out_apply (iblk m c 0 t) (iblk m c 1 t) (iblk m c 2 t) (iblk m c 3 t) (iblk m c 4 t) b q).trans ?_
  simp only [blk0 m c t, blk1 m c t, blk2 m c t, blk3 m c t, blk4 m c t]
  rfl

/-- An index of the result array is in point `t`'s block iff each coordinate is in the block's range on its axis. -/
theorem mem_blk (t : Fin cfg0.N) (i : S8x28672.Idx) :
    i ∈ ((cfg0.win 5).blk t).view.set ↔ ∀ a : Fin 2, win0_5.index t a * S8x1024.size a ≤ (i a).val
      ∧ (i a).val < win0_5.index t a * S8x1024.size a + S8x1024.size a := by
  show i ∈ ((View.whole main_v20).slice (win0_5.rect t)).set ↔ _
  rw [View.set_slice_whole, Rect.mem_set_unit]
  exact Iff.rfl

/-- The 28 blocks of 1024 columns tile the result: column `o` lies in block `o / 1024`. -/
theorem cover (i : S8x28672.Idx) :
    ∃ t : Fin cfg0.N, (cfg0.win 5).flush t = true ∧ i ∈ ((cfg0.win 5).blk t).view.set := by
  have hi0 : (i 0).val < 8 := (i 0).isLt
  have hi1 : (i 1).val < 28672 := (i 1).isLt
  have hN : cfg0.N = 28 := N_0
  let t : Fin cfg0.N := ⟨(i 1).val / 1024, by rw [hN]; omega⟩
  have ht : t.val = (i 1).val / 1024 := rfl
  refine ⟨t, flush0_5 t, ?_⟩
  rw [mem_blk]
  obtain ⟨-, -, -, -, -, -, -, -, -, -, -, e0, e1⟩ := idx_facts t
  intro a
  match a with
  | ⟨0, _⟩ =>
    show win0_5.index t (0 : Fin 2) * 8 ≤ (i 0).val ∧ (i 0).val < win0_5.index t (0 : Fin 2) * 8 + 8
    omega
  | ⟨1, _⟩ =>
    show win0_5.index t (1 : Fin 2) * 1024 ≤ (i 1).val ∧ (i 1).val < win0_5.index t (1 : Fin 2) * 1024 + 1024
    omega

/-- THE ARRAY after the run is the kernel's result array of the arguments. -/
theorem final (c : Dev nD) : (dats m 0 c).arrAt 5 cfg0.N
    = kerOut (m ((c : Thread nD τ).loc main_arg0)) (m ((c : Thread nD τ).loc main_arg1)) (m ((c : Thread nD τ).loc main_arg2))
        (m ((c : Thread nD τ).loc main_arg3)) :=
  (dats m 0 c).arrAt_eq_of_cover 5 _ (fun t _ => flushed_eq m c t) cover

/-- The frame run re-posted: the result array at its function of the arguments, the arguments unchanged. -/
theorem run : θ_run defs (onTc (τ := τ) (main (F := Ideal))) ⟨m, fun _ => 0, ρ⟩ fun r => ∀ c : Dev nD,
      r.2.mem ((c : Thread nD τ).loc main_v20)
        = kerOut (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Final

end
-- ==== Proof.RefValue.lean ====
/-
  What the reference program computes, as one term and at one index.

  The reference quantizes the activations `x` (8 rows of 8192) with one scale for the whole array,
  `act = max (max |x|, 1e-5) / 127` and `xq = clip (round (x / act), -128, 127)`; it decodes the packed weights, 28672
  rows of 2048 words, each word holding four two-bit codes: the word is repeated along a new last axis of length 4,
  shifted right by the table `[0, 2, 4, 6]` along that axis, masked with `3` and lowered by `1`, so that entry
  `(o, k, s)` is code `s` of word `(o, k)` less one; the array `[28672, 2048, 4]` is then read as `[28672, 8192]`,
  which in row-major order pairs position `i` of a row with word `i / 4` and place `i % 4`; the decoded weights are
  converted to floats, contracted with the quantized activations over the 8192 positions, and the result is scaled by
  `weight_scale[0] * act` and shifted by the bias of its column.

  First the program's operations as a list (the two outlined functions' operations at their calls) and the run over
  it: every execution ends with the result buffer at the composed term `out` of the four arguments, the arguments
  unchanged. Then `out` at an index `(b, o)` over the extended reals, operation by operation.
-/
import proofs.«404982_j87471303951027_3_alg».proof.Proof.Gen.ReferenceIdeal
import proofs.«404982_j87471303951027_3_alg».proof.Proof.Quant
import proofs.«404982_j87471303951027_3_alg».proof.Proof.Regroup
import proofs.«404982_j87471303951027_3_alg».proof.Proof.LibDot
import Idealize.ShloMosaic.Lib.StableHlo.Run
import Idealize.ShloMosaic.Lib.ValueIdx
import Idealize.ShloMosaic.Lib.Pipeline.Value
import Idealize.ShloMosaic.Lib.IdealHost

open scoped BigOperators

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

section Run

variable {F : FTy → Type} [FloatOps F]

/-- @main's 40 operations in order, the calls unfolded: `round` is one operation into the first call's buffer;
    `clip` is six into the second call's (each bound converted to a float and broadcast, the maximum with the lower
    one, the minimum with the upper one). -/
abbrev ops : List (HloOp τ sig (Elt F)) :=
  [ nullary main_c (fun i => lit0 (S4.rowMajor i)),
    unary main_arg0 main_v0 (Host.absf : (⟨S8x8192, .f32⟩ : BufTy).Contents (Elt F) → (⟨S8x8192, .f32⟩ : BufTy).Contents (Elt F)),
    nullary main_cst (constant S_ .f32 0xFF800000#32),
    binary main_v0 main_cst main_v1 ((fun x v => Host.reduce FloatOps.maximumf x v reducesTo_S8x8192_S_d0_1 h_S_) : (⟨S8x8192, .f32⟩ : BufTy).Contents (Elt F) → (⟨S_, .f32⟩ : BufTy).Contents (Elt F) → (⟨S_, .f32⟩ : BufTy).Contents (Elt F)),
    nullary main_cst_0 (constant S_ .f32 0x3727C5AC#32),
    binary main_v1 main_cst_0 main_v2 (maximumf : (⟨S_, .f32⟩ : BufTy).Contents (Elt F) → (⟨S_, .f32⟩ : BufTy).Contents (Elt F) → (⟨S_, .f32⟩ : BufTy).Contents (Elt F)),
    nullary main_cst_1 (constant S_ .f32 0x42FE0000#32),
    binary main_v2 main_cst_1 main_v3 (Host.divf : (⟨S_, .f32⟩ : BufTy).Contents (Elt F) → (⟨S_, .f32⟩ : BufTy).Contents (Elt F) → (⟨S_, .f32⟩ : BufTy).Contents (Elt F)),
    unary main_v3 main_v4 (broadcastInDim S8x8192 ![] bcast_S_S8x8192 : (⟨S_, .f32⟩ : BufTy).Contents (Elt F) → (⟨S8x8192, .f32⟩ : BufTy).Contents (Elt F)),
    binary main_arg0 main_v4 main_v5 (Host.divf : (⟨S8x8192, .f32⟩ : BufTy).Contents (Elt F) → (⟨S8x8192, .f32⟩ : BufTy).Contents (Elt F) → (⟨S8x8192, .f32⟩ : BufTy).Contents (Elt F)),
    TRef.unary (.of main_v5) main_call0.v0 Host.roundeven,
    nullary main_c_2 (constantI S_ 32 4294967168#32),
    nullary main_c_3 (constantI S_ 32 127#32),
    TRef.unary (.of main_c_2) main_call1.v0 (sitofp .f32),
    TRef.unary main_call1.v0 main_call1.v1 (broadcastInDim S8x8192 ![] bcast_S_S8x8192),
    TRef.binary main_call1.v1 (.of main_v6) main_call1.v2 maximumf,
    TRef.unary (.of main_c_3) main_call1.v3 (sitofp .f32),
    TRef.unary main_call1.v3 main_call1.v4 (broadcastInDim S8x8192 ![] bcast_S_S8x8192),
    TRef.binary main_call1.v4 main_call1.v2 main_call1.v5 minimumf,
    unary main_arg1 main_v8 (broadcastInDim S28672x2048x1 ![0, 1] bcast_S28672x2048_S28672x2048x1_0_1 : (⟨S28672x2048, .i32⟩ : BufTy).Contents (Elt F) → (⟨S28672x2048x1, .i32⟩ : BufTy).Contents (Elt F)),
    unary main_c main_v9 (broadcastInDim S1x1x4 ![2] bcast_S4_S1x1x4_2 : (⟨S4, .i32⟩ : BufTy).Contents (Elt F) → (⟨S1x1x4, .i32⟩ : BufTy).Contents (Elt F)),
    unary main_v8 main_v10 (broadcastInDim S28672x2048x4 ![0, 1, 2] bcast_S28672x2048x1_S28672x2048x4_0_1_2 : (⟨S28672x2048x1, .i32⟩ : BufTy).Contents (Elt F) → (⟨S28672x2048x4, .i32⟩ : BufTy).Contents (Elt F)),
    unary main_v9 main_v11 (broadcastInDim S28672x2048x4 ![0, 1, 2] bcast_S1x1x4_S28672x2048x4_0_1_2 : (⟨S1x1x4, .i32⟩ : BufTy).Contents (Elt F) → (⟨S28672x2048x4, .i32⟩ : BufTy).Contents (Elt F)),
    binary main_v10 main_v11 main_v12 (Host.shrsi : (⟨S28672x2048x4, .i32⟩ : BufTy).Contents (Elt F) → (⟨S28672x2048x4, .i32⟩ : BufTy).Contents (Elt F) → (⟨S28672x2048x4, .i32⟩ : BufTy).Contents (Elt F)),
    nullary main_c_4 (constantI S_ 32 3#32),
    unary main_c_4 main_v13 (broadcastInDim S28672x2048x4 ![] bcast_S_S28672x2048x4 : (⟨S_, .i32⟩ : BufTy).Contents (Elt F) → (⟨S28672x2048x4, .i32⟩ : BufTy).Contents (Elt F)),
    binary main_v12 main_v13 main_v14 (andi : (⟨S28672x2048x4, .i32⟩ : BufTy).Contents (Elt F) → (⟨S28672x2048x4, .i32⟩ : BufTy).Contents (Elt F) → (⟨S28672x2048x4, .i32⟩ : BufTy).Contents (Elt F)),
    nullary main_c_5 (constantI S_ 32 1#32),
    unary main_c_5 main_v15 (broadcastInDim S28672x2048x4 ![] bcast_S_S28672x2048x4 : (⟨S_, .i32⟩ : BufTy).Contents (Elt F) → (⟨S28672x2048x4, .i32⟩ : BufTy).Contents (Elt F)),
    binary main_v14 main_v15 main_v16 (subi : (⟨S28672x2048x4, .i32⟩ : BufTy).Contents (Elt F) → (⟨S28672x2048x4, .i32⟩ : BufTy).Contents (Elt F) → (⟨S28672x2048x4, .i32⟩ : BufTy).Contents (Elt F)),
    reshape main_v16 main_v17 rfl shapeCasts_S28672x2048x4_S28672x8192,
    unary main_v17 main_v18 (sitofp .f32 : (⟨S28672x8192, .i32⟩ : BufTy).Contents (Elt F) → (⟨S28672x8192, .f32⟩ : BufTy).Contents (Elt F)),
    binary main_v7 main_v18 main_v19 ((fun l r => Host.dotGeneral dot_S8x8192_S28672x8192_S8x28672_1_1_0_0_n_n none l r) : (⟨S8x8192, .f32⟩ : BufTy).Contents (Elt F) → (⟨S28672x8192, .f32⟩ : BufTy).Contents (Elt F) → (⟨S8x28672, .f32⟩ : BufTy).Contents (Elt F)),
    reshape main_arg2 main_v20 rfl shapeCasts_S1_S_,
    binary main_v20 main_v3 main_v21 (mulf : (⟨S_, .f32⟩ : BufTy).Contents (Elt F) → (⟨S_, .f32⟩ : BufTy).Contents (Elt F) → (⟨S_, .f32⟩ : BufTy).Contents (Elt F)),
    unary main_v21 main_v22 (broadcastInDim S8x28672 ![] bcast_S_S8x28672 : (⟨S_, .f32⟩ : BufTy).Contents (Elt F) → (⟨S8x28672, .f32⟩ : BufTy).Contents (Elt F)),
    binary main_v19 main_v22 main_v23 (mulf : (⟨S8x28672, .f32⟩ : BufTy).Contents (Elt F) → (⟨S8x28672, .f32⟩ : BufTy).Contents (Elt F) → (⟨S8x28672, .f32⟩ : BufTy).Contents (Elt F)),
    unary main_arg3 main_v24 (broadcastInDim S1x28672 ![1] bcast_S28672_S1x28672_1 : (⟨S28672, .f32⟩ : BufTy).Contents (Elt F) → (⟨S1x28672, .f32⟩ : BufTy).Contents (Elt F)),
    unary main_v24 main_v25 (broadcastInDim S8x28672 ![0, 1] bcast_S1x28672_S8x28672_0_1 : (⟨S1x28672, .f32⟩ : BufTy).Contents (Elt F) → (⟨S8x28672, .f32⟩ : BufTy).Contents (Elt F)),
    binary main_v23 main_v25 main_v26 (addf : (⟨S8x28672, .f32⟩ : BufTy).Contents (Elt F) → (⟨S8x28672, .f32⟩ : BufTy).Contents (Elt F) → (⟨S8x28672, .f32⟩ : BufTy).Contents (Elt F)) ]

set_option maxRecDepth 2048 in
/-- @main is that straight line: the two functions' definitions unfolded at their calls, both sides are one chain of
    steps once sequencing is reassociated. -/
theorem main_eq (c : Dev nD) : main (F := F) c = seq ops := by
  simp only [main, fn_round.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., binary_bufs_sub .., nullary_bufs_sub .., binary_bufs_sub ..,
    nullary_bufs_sub .., binary_bufs_sub .., unary_bufs_sub .., binary_bufs_sub .., unary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., unary_bufs_sub .., unary_bufs_sub .., binary_bufs_sub ..,
    nullary_bufs_sub .., unary_bufs_sub .., binary_bufs_sub .., nullary_bufs_sub .., unary_bufs_sub .., binary_bufs_sub ..,
    reshape_bufs_sub .., unary_bufs_sub .., binary_bufs_sub .., reshape_bufs_sub .., binary_bufs_sub .., unary_bufs_sub ..,
    binary_bufs_sub .., unary_bufs_sub .., unary_bufs_sub .., binary_bufs_sub ..⟩

/-- The decoded codes, one per word and place: the word shifted right by twice the place, its low two bits, less one. -/
def codes (p : IVec S28672x2048 32) : IVec S28672x2048x4 32 :=
  subi
    (andi
      (Host.shrsi
        (broadcastInDim S28672x2048x4 ![0, 1, 2] bcast_S28672x2048x1_S28672x2048x4_0_1_2
          (broadcastInDim S28672x2048x1 ![0, 1] bcast_S28672x2048_S28672x2048x1_0_1 p))
        (broadcastInDim S28672x2048x4 ![0, 1, 2] bcast_S1x1x4_S28672x2048x4_0_1_2
          (broadcastInDim S1x1x4 ![2] bcast_S4_S1x1x4_2 (fun i => lit0 (S4.rowMajor i)))))
      (broadcastInDim S28672x2048x4 ![] bcast_S_S28672x2048x4 (constantI S_ 32 3#32)))
    (broadcastInDim S28672x2048x4 ![] bcast_S_S28672x2048x4 (constantI S_ 32 1#32))

/-- The decoded weights as the reference lays them out: the codes' last two axes merged, a row of 8192 per output. -/
def weights (p : IVec S28672x2048 32) : IVec S28672x8192 32 :=
  shapeCast S28672x8192 (codes p) shapeCasts_S28672x2048x4_S28672x8192

/-- The reference's result as one term of its four arguments: the quantized activations contracted with the decoded
    weights over the 8192 positions, times `weight_scale[0] * act`, plus the bias broadcast along the rows. -/
def out (x : FVec F S8x8192 .f32) (p : IVec S28672x2048 32) (ws : FVec F S1 .f32) (bs : FVec F S28672 .f32) :
    FVec F S8x28672 .f32 :=
  addf
    (mulf
      (Host.dotGeneral dot_S8x8192_S28672x8192_S8x28672_1_1_0_0_n_n none (Cert.Ternary.xq x) (sitofp .f32 (weights p)))
      (broadcastInDim S8x28672 ![] bcast_S_S8x28672 (mulf (shapeCast S_ ws shapeCasts_S1_S_) (Cert.Ternary.act x))))
    (broadcastInDim S8x28672 ![0, 1] bcast_S1x28672_S8x28672_0_1 (broadcastInDim S1x28672 ![1] bcast_S28672_S1x28672_1 bs))

/-- On every device, for any float values, from any memory with zero counters: every weakly fair execution of @main
    terminates with the result at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v26).trans (by after_results_simp; rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Run

/-! ## The result at an index, over the extended reals -/

section Apply

open Cert.Ternary (grp plc)

/-- The word repeated along the place axis reads the word. -/
theorem word_apply (p : IVec S28672x2048 32) (o : Fin 28672) (k : Fin 2048) (s : Fin 4) :
    broadcastInDim S28672x2048x4 ![0, 1, 2] bcast_S28672x2048x1_S28672x2048x4_0_1_2
        (broadcastInDim S28672x2048x1 ![0, 1] bcast_S28672x2048_S28672x2048x1_0_1 p) (ix3 o k s) = p (ix2 o k) := by
  rw [broadcastInDim_apply _ _ _ (ix3 o k s) (ix3 o k (0 : Fin 1))
        (fun a => match a with | ⟨0, _⟩ => rfl | ⟨1, _⟩ => rfl | ⟨2, _⟩ => rfl),
      broadcastInDim_apply _ _ _ (ix3 o k (0 : Fin 1)) (ix2 o k)
        (fun a => match a with | ⟨0, _⟩ => rfl | ⟨1, _⟩ => rfl)]

/-- The table of shifts repeated along the output and word axes reads the table at the place. -/
theorem shift_apply (o : Fin 28672) (k : Fin 2048) (s : Fin 4) :
    broadcastInDim S28672x2048x4 ![0, 1, 2] bcast_S1x1x4_S28672x2048x4_0_1_2
        (broadcastInDim S1x1x4 ![2] bcast_S4_S1x1x4_2 (fun i => lit0 (S4.rowMajor i))) (ix3 o k s) = lit0 s := by
  rw [broadcastInDim_apply _ _ _ (ix3 o k s) (ix3 (0 : Fin 1) (0 : Fin 1) s)
        (fun a => match a with | ⟨0, _⟩ => rfl | ⟨1, _⟩ => rfl | ⟨2, _⟩ => rfl),
      broadcastInDim_apply _ _ _ (ix3 (0 : Fin 1) (0 : Fin 1) s) (ix1 s)
        (fun a => match a with | ⟨0, _⟩ => rfl)]
  exact congrArg lit0 (Fin.ext (Shape.rowMajor_val_one (ix1 s)))

/-- The code of word `(o, k)` at place `s`: the word shifted right by the table's entry, its low two bits, less one. -/
theorem codes_apply (p : IVec S28672x2048 32) (o : Fin 28672) (k : Fin 2048) (s : Fin 4) :
    codes p (ix3 o k s) = IntOp.subi (IntOp.andi (IntOp.shrsi .host (p (ix2 o k)) (lit0 s)) 3#32) 1#32 := by
  unfold codes
  show IntOp.subi (IntOp.andi (IntOp.shrsi .host (broadcastInDim S28672x2048x4 ![0, 1, 2] bcast_S28672x2048x1_S28672x2048x4_0_1_2
        (broadcastInDim S28672x2048x1 ![0, 1] bcast_S28672x2048_S28672x2048x1_0_1 p) (ix3 o k s))
      (broadcastInDim S28672x2048x4 ![0, 1, 2] bcast_S1x1x4_S28672x2048x4_0_1_2
        (broadcastInDim S1x1x4 ![2] bcast_S4_S1x1x4_2 (fun i => lit0 (S4.rowMajor i))) (ix3 o k s))) 3#32) 1#32 = _
  rw [word_apply, shift_apply]

/-- Merging the word and place axes in row-major order: position `i` of row `o` is place `i % 4` of word `i / 4`,
    since `(o * 2048 + i / 4) * 4 + i % 4 = o * 8192 + i`. -/
theorem weights_apply (p : IVec S28672x2048 32) (o : Fin 28672) (i : Fin 8192) :
    weights p (ix2 o i) = codes p (ix3 o (grp i) (plc i)) := by
  unfold weights
  refine shapeCast_apply _ _ (ix2 o i) (ix3 o (grp i) (plc i)) ?_
  rw [Shape.rowMajor_val_three, Shape.rowMajor_val_two]
  show (o.val * 2048 + i.val / 4) * 4 + i.val % 4 = o.val * 8192 + i.val
  omega

/-- The contraction over axis 1 of both operands, read at `(b, o)`: the sum over the 8192 positions of the products. -/
theorem dot_apply (l : FVec Ideal S8x8192 .f32) (r : FVec Ideal S28672x8192 .f32) (b : Fin 8) (o : Fin 28672) :
    Host.dotGeneral dot_S8x8192_S28672x8192_S8x28672_1_1_0_0_n_n none l r (ix2 b o)
      = ∑ i : Fin 8192, l (ix2 b i) * r (ix2 o i) := by
  show FloatOps.dotGeneral (Cert.LibDot.D 8 8192 28672) none .single l r (ix2 b o) = _
  refine (Ideal.dotGeneral_apply _ _ _ l r (ix2 b o)).trans ?_
  exact Cert.LibDot.sum_contr 8 8192 28672 (fun a c => l a * r c) (ix2 b o)

/-- The scale: the one weight scale, read out of its one-element array, times the activation scale. -/
theorem scale_apply (x : FVec Ideal S8x8192 .f32) (ws : FVec Ideal S1 .f32) (b : Fin 8) (o : Fin 28672) :
    broadcastInDim S8x28672 ![] bcast_S_S8x28672 (mulf (shapeCast S_ ws shapeCasts_S1_S_) (Cert.Ternary.act x)) (ix2 b o)
      = ws (ix1 0) * Cert.Ternary.act x ix0 := by
  rw [broadcastInDim_scalar_apply, mulf_apply,
    shapeCast_apply ws shapeCasts_S1_S_ ix0 (ix1 0) (by rw [Shape.rowMajor_val_one]; rfl)]

/-- The bias broadcast along the rows reads the bias of the column. -/
theorem bias_apply (bs : FVec Ideal S28672 .f32) (b : Fin 8) (o : Fin 28672) :
    broadcastInDim S8x28672 ![0, 1] bcast_S1x28672_S8x28672_0_1 (broadcastInDim S1x28672 ![1] bcast_S28672_S1x28672_1 bs) (ix2 b o)
      = bs (ix1 o) := by
  rw [broadcastInDim_apply _ _ _ (ix2 b o) (ix2 (0 : Fin 1) o)
        (fun a => match a with | ⟨0, _⟩ => rfl | ⟨1, _⟩ => rfl),
      broadcastInDim_apply _ _ _ (ix2 (0 : Fin 1) o) (ix1 o)
        (fun a => match a with | ⟨0, _⟩ => rfl)]

/-- THE REFERENCE AT `(b, o)`: the sum over the 8192 positions of the quantized activation times the decoded code of
    its word and place, times `weight_scale[0] * act`, plus the bias of column `o`. -/
theorem out_apply (x : FVec Ideal S8x8192 .f32) (p : IVec S28672x2048 32) (ws : FVec Ideal S1 .f32) (bs : FVec Ideal S28672 .f32)
    (b : Fin 8) (o : Fin 28672) :
    out (F := Ideal) x p ws bs (ix2 b o)
      = (∑ i : Fin 8192, Cert.Ternary.xq x (ix2 b i)
            * (((IntOp.subi (IntOp.andi (IntOp.shrsi .host (p (ix2 o (Cert.Ternary.grp i))) (lit0 (Cert.Ternary.plc i))) 3#32) 1#32).toInt : ℝ) : EReal))
          * (ws (ix1 0) * Cert.Ternary.act x ix0) + bs (ix1 o) := by
  unfold out
  rw [addf_apply, mulf_apply, dot_apply, scale_apply, bias_apply]
  refine congrArg (fun t => t * _ + _) (Finset.sum_congr rfl fun i _ => ?_)
  rw [sitofp_apply, weights_apply, codes_apply]
  rfl

end Apply

end Cert.ReferenceIdeal.RefValue

end
-- ==== Proof.Scales.lean ====
/-
  The four scale factors the kernel's host code applies to the regrouped activations, as the numbers their float
  patterns denote over the extended reals: `1`, `1/4`, `1/16`, `1/64` — each a power of two, so each pattern is exact.
  They undo, place by place, the factor `4^s` a field masked in place carries.
-/
import Idealize.ShloMosaic.PureOps.Ideal

noncomputable section

namespace Cert.Ternary

open Idealize.ShloMosaic

theorem ofBits_one : Ideal.ofBits .f32 0x3F800000#32 = ((1 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

theorem ofBits_sixteenth : Ideal.ofBits .f32 0x3D800000#32 = ((1 / 16 : ℝ) : EReal) := by
  simp [Ideal.ofBits, Ideal.ieee, -EReal.coe_mul]; norm_num

theorem ofBits_sixtyfourth : Ideal.ofBits .f32 0x3C800000#32 = ((1 / 64 : ℝ) : EReal) := by
  simp [Ideal.ofBits, Ideal.ieee, -EReal.coe_mul]; norm_num

end Cert.Ternary

end
-- ==== Proof.Bridge.lean ====
/-
  The two programs compute one array.

  Entry `(b, o)` of the kernel's result is the four places' sums over the words of weight row `o`, less the row sum of
  the quantized activations of row `b`, times the scale, plus the bias; entry `(b, o)` of the reference's is the one
  sum over the 8192 positions of quantized activation times decoded code, times the same scale, plus the same bias. The
  regrouped activation at `(s, b, k)` is the quantized activation at position `4k + s` times `4^(-s)`, the four table
  entries being exactly `1, 1/4, 1/16, 1/64`; the quantized activations are real numbers because they are clipped;
  so the regrouping law applies to row `b` of the activations against row `o` of the packed words, and the two entries
  are equal. Neither the scale nor the bias needs to be finite: they enter both sides in the same way.
-/
import proofs.«404982_j87471303951027_3_alg».proof.Proof.KFinal
import proofs.«404982_j87471303951027_3_alg».proof.Proof.RefValue
import proofs.«404982_j87471303951027_3_alg».proof.Proof.Regroup
import proofs.«404982_j87471303951027_3_alg».proof.Proof.Scales

set_option maxRecDepth 16384

open scoped BigOperators

noncomputable section

namespace Cert.Ternary

open Idealize.ShloMosaic Idealize.ShloMosaic.ValueIdx
open Cert.KernelIdeal.HostVals Cert.KernelIdeal.Body Cert.KernelIdeal.Final

/-- The reference's table of shifts: entry `s` is `2s`. -/
theorem shifts (s : Fin 4) : (Cert.ReferenceIdeal.lit0 s).toNat = 2 * s.val := by
  fin_cases s <;> rfl

/-- Entry by entry the kernel's result is the reference's. -/
theorem entry_eq (x : FVec Ideal Cert.KernelIdeal.S8x8192 .f32) (p : IVec Cert.KernelIdeal.S28672x2048 32)
    (ws : FVec Ideal Cert.KernelIdeal.S1 .f32) (bs : FVec Ideal Cert.KernelIdeal.S28672 .f32) (b : Fin 8) (o : Fin 28672) :
    kerEntry x p ws bs b o = Cert.ReferenceIdeal.RefValue.out (F := Ideal) x p ws bs (ix2 b o) := by
  rw [Cert.ReferenceIdeal.RefValue.out_apply]
  unfold kerEntry
  rw [rowsum_apply, scale_apply, biasRow_apply]
  simp only [grouped_apply]
  rw [show Cert.KernelIdeal.lit0 (0 : Fin 4) = 0x3F800000#32 from rfl, show Cert.KernelIdeal.lit0 (1 : Fin 4) = 0x3E800000#32 from rfl,
    show Cert.KernelIdeal.lit0 (2 : Fin 4) = 0x3D800000#32 from rfl, show Cert.KernelIdeal.lit0 (3 : Fin 4) = 0x3C800000#32 from rfl,
    ofBits_one, ofBits_quarter, ofBits_sixteenth, ofBits_sixtyfourth]
  rw [regroup (fun i => xq x (ix2 b i)) (fun i => xq_real x (ix2 b i)) (fun k => p (ix2 o k)) Cert.ReferenceIdeal.lit0 shifts]

/-- The two result arrays are one. -/
theorem out_eq (x : FVec Ideal Cert.KernelIdeal.S8x8192 .f32) (p : IVec Cert.KernelIdeal.S28672x2048 32)
    (ws : FVec Ideal Cert.KernelIdeal.S1 .f32) (bs : FVec Ideal Cert.KernelIdeal.S28672 .f32) :
    kerOut x p ws bs = Cert.ReferenceIdeal.RefValue.out (F := Ideal) x p ws bs := by
  funext i
  obtain ⟨b, o, rfl⟩ : ∃ (b : Fin 8) (o : Fin 28672), i = ix2 b o := ⟨i 0, i 1, eq_ix2 i⟩
  exact entry_eq x p ws bs b o

end Cert.Ternary

end
-- ==== Proof.lean ====
/-
  A linear layer with ternary weights packed four to a word, against its plain reference, over the extended reals.

  Both programs quantize the activations the same way (one scale for the whole array, round, clip to `[-128, 127]`).
  The reference decodes every weight — word `p`, place `s`: `((p >> 2s) & 3) - 1` —, lays the codes out as rows of 8192,
  contracts them with the quantized activations, scales and adds the bias. The kernel never shifts and never subtracts
  per weight: for each place it masks the field where it sits (`p & (3 · 4^s)`, which is the code times `4^s`),
  multiplies against the activations of that place scaled by `4^(-s)` beforehand, adds the four products, and takes
  the row sum of the activations off once, before the scale and the bias. The two agree on every packed word, of
  either sign and whatever its upper 24 bits hold, because each side reads only the low byte's fields, and on every
  activation, because the clip makes the quantized activations real numbers, so that
  `Σ x · code - Σ x = Σ x · (code - 1)` holds.

  The three frames: the two kernels' are generated; the reference's is its run with the result dropped. The kernel's
  run ends with its result array at `kerOut` of the arguments (the generated blockwise run, the body read entry by
  entry, the 28 blocks tiling the result); the reference's run, written over its list of operations, ends at
  `RefValue.out`; `Ternary.out_eq` identifies the two. The ideal pass rewrote nothing, so `preserves` is trivial.
-/
import proofs.«404982_j87471303951027_3_alg».proof.Defs
import proofs.«404982_j87471303951027_3_alg».proof.Proof.Gen.Kernel
import proofs.«404982_j87471303951027_3_alg».proof.Proof.Gen.Kernel.Skeleton
import proofs.«404982_j87471303951027_3_alg».proof.Proof.Gen.Kernel.Launch
import proofs.«404982_j87471303951027_3_alg».proof.Proof.Gen.Kernel.Points
import proofs.«404982_j87471303951027_3_alg».proof.Proof.Gen.Kernel.Frame
import proofs.«404982_j87471303951027_3_alg».proof.Proof.Gen.KernelIdeal
import proofs.«404982_j87471303951027_3_alg».proof.Proof.Gen.KernelIdeal.Skeleton
import proofs.«404982_j87471303951027_3_alg».proof.Proof.Gen.KernelIdeal.Launch
import proofs.«404982_j87471303951027_3_alg».proof.Proof.Gen.KernelIdeal.Points
import proofs.«404982_j87471303951027_3_alg».proof.Proof.Gen.KernelIdeal.Frame
import proofs.«404982_j87471303951027_3_alg».proof.Proof.Gen.KernelIdeal.Value
import proofs.«404982_j87471303951027_3_alg».proof.Proof.Gen.ReferenceIdeal
import proofs.«404982_j87471303951027_3_alg».proof.Proof.Gen.Pre_finite_inputs
import proofs.«404982_j87471303951027_3_alg».proof.Proof.KFinal
import proofs.«404982_j87471303951027_3_alg».proof.Proof.RefValue
import proofs.«404982_j87471303951027_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The ideal pass rewrote no operation. -/
theorem preserves : Cert.preserves_Kernel_KernelIdeal := trivial

/-- From memories agreeing on the arguments the kernel's run ends with its result at `kerOut` of them and the
    reference's at `RefValue.out` of them: one array. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2]
  exact (Cert.Ternary.out_eq _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
